-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S8192x1 : Shape := ⟨2, ![8192, 1]⟩
abbrev S1x1 : Shape := ⟨2, ![1, 1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1 : S_.BroadcastsInDim S8192x1 (![] : Fin 0 → Fin S8192x1.rank)
  reducesTo_S8192x1_S_d0_1 : S8192x1.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S1x1 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  main_v23

def fn {F : FTy → Type} [FloatOps F] (main_arg0 : FVec F S4096x512 .f32) (main_arg1 : FVec F S8192x512 .f32) (main_arg2 : FVec F S8192x1 .f32) (main_arg3 : FVec F S8192x1 .f32) (main_arg4 : FVec F S1x1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_v13 main_v16
-- ==== Kernel.lean ====
abbrev S4096x512 : Shape := ⟨2, ![4096, 512]⟩
abbrev S8192x512 : Shape := ⟨2, ![8192, 512]⟩
abbrev S8192x1 : Shape := ⟨2, ![8192, 1]⟩
abbrev S1x1 : Shape := ⟨2, ![1, 1]⟩
abbrev S4096x1 : Shape := ⟨2, ![4096, 1]⟩
abbrev S1024x512 : Shape := ⟨2, ![1024, 512]⟩
abbrev S1024x1 : Shape := ⟨2, ![1024, 1]⟩
abbrev S1x1024 : Shape := ⟨2, ![1, 1024]⟩
abbrev S1024 : Shape := ⟨1, ![1024]⟩
abbrev S512x1024 : Shape := ⟨2, ![512, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x1, .f32⟩
  | .hbm, ⟨3, _⟩ => ⟨S8192x1, .f32⟩
  | .hbm, ⟨4, _⟩ => ⟨S1x1, .f32⟩
  | .hbm, ⟨5, _⟩ => ⟨S4096x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x1, .f32⟩
  | .local _ .vmem, ⟨9, _⟩ => ⟨S1024x1, .f32⟩
  | .local _ .vmem, ⟨10, _⟩ => ⟨S1024x1, .f32⟩
  | .local _ .vmem, ⟨11, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  transposes_S1024x512_p1_0_S512x1024 : S1024x512.Transposes [1, 0] S512x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  reduces_S1024x1024_S1024 : S1024x1024.Reduces [0] S1024
  shapeCasts_S1024_S1x1024 : S1024.ShapeCasts S1x1024
  inb_S1x1_S1x1_0_0 : ∀ a, (![0, 0] : Fin 2 → Nat) a + S1x1.size a ≤ S1x1.size a
  h_S1x1 : 0 < S1x1.numel
  broadcasts_S1x1_S1x1024 : S1x1.Broadcasts S1x1024
  transposes_S1x1024_p1_0_S1024x1 : S1x1024.Transposes [1, 0] S1024x1
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S8192x1 : Shape := ⟨2, ![8192, 1]⟩
abbrev S1x1 : Shape := ⟨2, ![1, 1]⟩
abbrev S_ : Shape := ⟨0, ![]⟩
abbrev S8192 : Shape := ⟨1, ![8192]⟩
abbrev S4096 : Shape := ⟨1, ![4096]⟩
abbrev S4096x1 : Shape := ⟨2, ![4096, 1]⟩
abbrev S1x4096 : Shape := ⟨2, ![1, 4096]⟩
abbrev S8192x4096 : Shape := ⟨2, ![8192, 4096]⟩
abbrev S512x4096 : Shape := ⟨2, ![512, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x1, .f32⟩
  | .hbm, ⟨3, _⟩ => ⟨S8192x1, .f32⟩
  | .hbm, ⟨4, _⟩ => ⟨S1x1, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S512x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S4096x1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S4096x512_S4096_d1 : S4096x512.ReducesTo [1] S4096
  bcast_S4096_S4096x1_0 : S4096.BroadcastsInDim S4096x1 (![0] : Fin 1 → Fin S4096x1.rank)
  transposes_S4096x1_S1x4096_1_0 : S4096x1.Transposes [1, 0] S1x4096
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  transposes_S4096x512_S512x4096_1_0 : S4096x512.Transposes [1, 0] S512x4096
  bcast_S_S8192x4096 : S_.BroadcastsInDim S8192x4096 (![] : Fin 0 → Fin S8192x4096.rank)
  reducesTo_S8192x4096_S4096_d0 : S8192x4096.ReducesTo [0] S4096
  bcast_S4096_S1x4096_1 : S4096.BroadcastsInDim S1x4096 (![1] : Fin 1 → Fin S1x4096.rank)
  bcast_S1x1_S1x4096_0_1 : S1x1.BroadcastsInDim S1x4096 (![0, 1] : Fin 2 → Fin S1x4096.rank)
  transposes_S1x4096_S4096x1_1_0 : S1x4096.Transposes [1, 0] S4096x1
  dot_S8192x512_S512x4096_S8192x4096_1_0_0_1_n_n_wf : DotDims.WF S8192x512 S512x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf

class Facts : Prop extends Facts₀ where

variable [Facts]
-- ==== Proof.Pieces.lean ====
/-
  What one grid point leaves behind, as pure functions of what it read.

  The body keeps a row accumulator of 1024 partial decision values.  At a point it (first point of a run only)
  clears the accumulator, reads the accumulator back, adds to it the column sums of the weighted kernel matrix of
  the point's 1024 support vectors against the point's 1024 queries, and stores the sum; at the last point of a
  run it reads the stored sum once more, adds the bias and stores the transposed column as the output block.

  So, writing `upd` for "accumulator plus this point's column sums" (`k0_pay4`, passed through the identity
  reshape `k0_pay1`), `zero` for the cleared accumulator (`k0_pay3`) and `fin` for "add the bias, transpose"
  (`k0_pay2`):
    * a first point leaves   upd zero            in the accumulator,
    * every other point      upd (previous)      in the accumulator,
    * a last point also      fin (upd previous)  in the output block.
  Each statement below is that reading: the stores cover their buffer whole, so what is read back after them is
  the last payload stored, and a load of a buffer nothing has stored into yet reads the contents it came with.
-/
import proofs.«120294_j24678882082903_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- Every load and store of the body starts at the origin of its buffer. -/
theorem hz2 : (![0, 0] : Fin 2 → Nat) = fun _ => 0 := by
  funext a; match a with | ⟨0, _⟩ => rfl | ⟨1, _⟩ => rfl

/-- A middle point of a run: the accumulator ends at the previous contents plus this point's column sums. -/
theorem sout_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x1024 .f32) (harg8 : arg8.IsWhole) (hc0 : ¬cond0_0 i) (hc1 : ¬cond0_1 i) (x0 : Vec F S1024x512 .f32) (x1 : Vec F S1024x512 .f32) (x2 : Vec F S1024x1 .f32) (x3 : Vec F S1024x1 .f32) (x4 : Vec F S1x1 .f32) (xs0 : Vec F S1x1024 .f32) :
    sout0_B_0 c i arg2 harg2 arg3 harg3 arg4 harg4 arg5 harg5 arg6 harg6 arg7 harg7 arg8 harg8 hc0 hc1 x0 x1 x2 x3 x4 xs0 = k0_pay1 (k0_pay4 x0 x1 x3 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S1x1024) hz2]
  simp only [View.readAt_eq_ld, harg2.read_unread, harg3.read_unread, harg4.read_unread, harg5.read_unread, harg6.read_unread, harg8.read_unread,
    View.ld_unit_zero (S := S1024x512) hz2, View.ld_unit_zero (S := S1024x1) hz2, View.ld_unit_zero (S := S1x1024) hz2, View.ld_unit_zero (S := S1x1) hz2,
    View.readCov_unit_zero (S := S1x1024) _ hz2]

/-- The first point of a run: the accumulator is cleared first, so it ends at zero plus this point's column sums,
    whatever it held before. -/
theorem sout_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x1024 .f32) (harg8 : arg8.IsWhole) (hc0 : cond0_0 i) (hc1 : ¬cond0_1 i) (x0 : Vec F S1024x512 .f32) (x1 : Vec F S1024x512 .f32) (x2 : Vec F S1024x1 .f32) (x3 : Vec F S1024x1 .f32) (x4 : Vec F S1x1 .f32) :
    sout0_A_0 c i arg2 harg2 arg3 harg3 arg4 harg4 arg5 harg5 arg6 harg6 arg7 harg7 arg8 harg8 hc0 hc1 x0 x1 x2 x3 x4 = k0_pay1 (k0_pay4 x0 x1 x3 x2 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread, harg8.read_unread,
    View.ld_unit_zero (S := S1024x512) hz2, View.ld_unit_zero (S := S1024x1) hz2, View.ld_unit_zero (S := S1x1024) hz2, View.ld_unit_zero (S := S1x1) hz2,
    View.readCov_unit_zero (S := S1x1024) _ hz2]

/-- The last point of a run updates the accumulator exactly as a middle point does. -/
theorem sout_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x1024 .f32) (harg8 : arg8.IsWhole) (hc0 : ¬cond0_0 i) (hc1 : cond0_1 i) (x0 : Vec F S1024x512 .f32) (x1 : Vec F S1024x512 .f32) (x2 : Vec F S1024x1 .f32) (x3 : Vec F S1024x1 .f32) (x4 : Vec F S1x1 .f32) (xs0 : Vec F S1x1024 .f32) :
    sout0_C_0 c i arg2 harg2 arg3 harg3 arg4 harg4 arg5 harg5 arg6 harg6 arg7 harg7 arg8 harg8 hc0 hc1 x0 x1 x2 x3 x4 xs0 = k0_pay1 (k0_pay4 x0 x1 x3 x2 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1x1024) hz2]
  simp only [View.readAt_eq_ld, harg2.read_unread, harg3.read_unread, harg4.read_unread, harg5.read_unread, harg6.read_unread, harg8.read_unread,
    View.ld_unit_zero (S := S1024x512) hz2, View.ld_unit_zero (S := S1024x1) hz2, View.ld_unit_zero (S := S1x1024) hz2, View.ld_unit_zero (S := S1x1) hz2,
    View.readCov_unit_zero (S := S1x1024) _ hz2]

/-- … and its output block is the updated accumulator plus the bias, as a column. -/
theorem out_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x1024 .f32) (harg8 : arg8.IsWhole) (hc0 : ¬cond0_0 i) (hc1 : cond0_1 i) (x0 : Vec F S1024x512 .f32) (x1 : Vec F S1024x512 .f32) (x2 : Vec F S1024x1 .f32) (x3 : Vec F S1024x1 .f32) (x4 : Vec F S1x1 .f32) (xs0 : Vec F S1x1024 .f32) :
    out0_C_5 c i arg2 harg2 arg3 harg3 arg4 harg4 arg5 harg5 arg6 harg6 arg7 harg7 arg8 harg8 hc0 hc1 x0 x1 x2 x3 x4 xs0 = k0_pay2 (k0_pay1 (k0_pay4 x0 x1 x3 x2 xs0)) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1024x1) hz2]
  simp only [View.readAt_eq_ld, harg2.read_unread, harg3.read_unread, harg4.read_unread, harg5.read_unread, harg6.read_unread, harg8.read_unread,
    View.ld_unit_zero (S := S1024x512) hz2, View.ld_unit_zero (S := S1024x1) hz2, View.ld_unit_zero (S := S1x1024) hz2, View.ld_unit_zero (S := S1x1) hz2,
    View.readCov_unit_zero (S := S1x1024) _ hz2]

end Cert.KernelIdeal.Pieces

end
-- ==== Proof.Spec.lean ====
/-
  The mathematics of the support-vector decision function both programs compute, over the extended reals.

  For support vectors x_n (n < 8192, 512 features each), query points z_q (q < 4096), coefficients a_n,
  labels y_n and a bias b, the value at query q is

      ( Σ_n (a_n · y_n) · exp (γ · max (‖x_n‖² + ‖z_q‖² − 2 · ⟨x_n, z_q⟩, 0)) ) + b,

  γ the (negative) bandwidth constant, the squared norms and the inner product sums over the 512 features.
  This file states the summand (`kern` of two rows and a weight; `term` of the arrays at a pair (n, q)), the
  result (`G`), and the one law of sums the proof needs: the sum over the 8192 support vectors is the sum, over
  8 consecutive runs, of the sums over the 1024 vectors of each run.  Addition on the extended reals is
  commutative and associative, so the law needs no finiteness.
-/
import Idealize.ShloMosaic.PureOps.Ideal
import Idealize.ShloMosaic.PureOps.Ideal.Laws
import Idealize.ShloMosaic.Lib.ValueIdx

noncomputable section

namespace Cert.Svm

open Idealize.ShloMosaic Idealize.ShloMosaic.ValueIdx

/-- The factor 2 of the cross term and the bandwidth γ = −1/512, as the words both programs carry. -/
abbrev two : EReal := Ideal.ofBits .f32 0x40000000#32
abbrev gam : EReal := Ideal.ofBits .f32 0xBB000000#32

/-- One support vector's contribution at one query: its weight `w` times the radial kernel of the two rows,
    the squared distance expanded as ‖x‖² + ‖z‖² − 2⟨x, z⟩ and clamped at zero from below. -/
def kern (xr zr : Fin 512 → EReal) (w : EReal) : EReal :=
  w * Ideal.exp (gam * max (((∑ k : Fin 512, xr k * xr k) + ∑ k : Fin 512, zr k * zr k) - two * ∑ k : Fin 512, xr k * zr k) 0)

/-- The contribution of support vector `n` at query `q`, from the arrays. -/
def term (X : (⟨2, ![8192, 512]⟩ : Shape).Idx → EReal) (Z : (⟨2, ![4096, 512]⟩ : Shape).Idx → EReal)
    (Y a : (⟨2, ![8192, 1]⟩ : Shape).Idx → EReal) (n : Fin 8192) (q : Fin 4096) : EReal :=
  kern (fun k => X (ix2 n k)) (fun k => Z (ix2 q k)) (a (ix2 n 0) * Y (ix2 n 0))

/-- The same at natural numbers (zero outside the arrays): the form in which a tile's rows `1024·s + r` and
    columns `1024·j + c` are named without carrying their bounds. -/
def termN (X : (⟨2, ![8192, 512]⟩ : Shape).Idx → EReal) (Z : (⟨2, ![4096, 512]⟩ : Shape).Idx → EReal)
    (Y a : (⟨2, ![8192, 1]⟩ : Shape).Idx → EReal) (n q : ℕ) : EReal :=
  if h : n < 8192 ∧ q < 4096 then term X Z Y a ⟨n, h.1⟩ ⟨q, h.2⟩ else 0

theorem termN_eq (X : (⟨2, ![8192, 512]⟩ : Shape).Idx → EReal) (Z : (⟨2, ![4096, 512]⟩ : Shape).Idx → EReal)
    (Y a : (⟨2, ![8192, 1]⟩ : Shape).Idx → EReal) (n q : ℕ) (hn : n < 8192) (hq : q < 4096) :
    termN X Z Y a n q = term X Z Y a ⟨n, hn⟩ ⟨q, hq⟩ := dif_pos ⟨hn, hq⟩

/-- THE RESULT: the decision value of every query, as a column. -/
def G (X : (⟨2, ![8192, 512]⟩ : Shape).Idx → EReal) (Z : (⟨2, ![4096, 512]⟩ : Shape).Idx → EReal)
    (Y a : (⟨2, ![8192, 1]⟩ : Shape).Idx → EReal) (b : (⟨2, ![1, 1]⟩ : Shape).Idx → EReal) :
    (⟨2, ![4096, 1]⟩ : Shape).Idx → EReal :=
  fun i => (∑ n : Fin 8192, term X Z Y a n (i 0)) + b (ix2 0 0)

/-- A sum over `L·J` consecutive naturals is the sum over `J` runs of the sums over each run's `L` terms:
    in any commutative monoid, by induction on the number of runs. -/
theorem sum_runs {M : Type*} [AddCommMonoid M] (f : ℕ → M) (L : ℕ) :
    ∀ J : ℕ, ∑ s ∈ Finset.range J, ∑ r ∈ Finset.range L, f (L * s + r) = ∑ n ∈ Finset.range (L * J), f n
  | 0 => by simp
  | J + 1 => by rw [Finset.sum_range_succ, sum_runs f L J, Nat.mul_succ, Finset.sum_range_add]

/-- So the eight tiles of 1024 support vectors each, summed one after the other, give the whole sum over the
    8192 support vectors at a query. -/
theorem tiles_sum (X : (⟨2, ![8192, 512]⟩ : Shape).Idx → EReal) (Z : (⟨2, ![4096, 512]⟩ : Shape).Idx → EReal)
    (Y a : (⟨2, ![8192, 1]⟩ : Shape).Idx → EReal) (Q : ℕ) (hQ : Q < 4096) :
    ∑ s ∈ Finset.range 8, ∑ r : Fin 1024, termN X Z Y a (1024 * s + r.val) Q
      = ∑ n : Fin 8192, term X Z Y a n ⟨Q, hQ⟩ := by
  have e1 : ∀ s, ∑ r : Fin 1024, termN X Z Y a (1024 * s + r.val) Q
      = ∑ r ∈ Finset.range 1024, termN X Z Y a (1024 * s + r) Q := fun s =>
    Fin.sum_univ_eq_sum_range (fun r => termN X Z Y a (1024 * s + r) Q) 1024
  rw [Finset.sum_congr rfl fun s _ => e1 s, sum_runs (fun n => termN X Z Y a n Q) 1024 8,
    ← Fin.sum_univ_eq_sum_range (fun n => termN X Z Y a n Q) (1024 * 8)]
  exact Finset.sum_congr rfl fun n _ => termN_eq X Z Y a n.val Q n.isLt hQ

end Cert.Svm

end
-- ==== Proof.LibColumnLayout.lean ====
/-
  Column layouts read at an index: the shapes a row-wise sum kept as a column passes through.

  A vector of length `a` viewed as an `[a, 1]` column, and a column spread over `b` lanes, are both read at an
  index by forgetting the unit coordinate: entry `(i, ·)` is entry `i` of the vector, respectively entry `(i, 0)`
  of the column.  General in the extents.
-/
import Idealize.ShloMosaic.Lib.ValueIdx
import Idealize.ShloMosaic.Lib.ValueLayout
import Idealize.ShloMosaic.Lib.Pipeline.Value

namespace Cert.ColumnLayout

open Idealize.ShloMosaic Idealize.ShloMosaic.ValueIdx

variable {α : Type}

/-- An `[a]` array cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Payload.lean ====
/-
  One grid point's arithmetic, entry by entry, over the extended reals.

  The point holds a block of 1024 support vectors (rows of 512 features), a block of 1024 queries, the
  coefficients and labels of those support vectors as columns, and a row accumulator.  Read at a column `c`, the
  updated accumulator is the old entry plus the sum, over the block's support vectors `r`, of
      (a_r · y_r) · exp (γ · max (‖x_r‖² + ‖z_c‖² − 2 · ⟨x_r, z_c⟩, 0)),
  which is `Svm.kern` of the two rows and the weight.  The steps: the row sums of squares are lane reductions kept as
  columns (one spread along the rows, the other transposed and spread along the columns); the inner products are the
  block product into a zero accumulator, whose narrowing of the operands to sixteen bits is the identity on the
  extended reals; the rest is entrywise.  The output block at a row is the accumulator's entry plus the bias.
-/
import proofs.«120294_j24678882082903_1_alg».proof.Proof.Gen.KernelIdeal.Skeleton
import proofs.«120294_j24678882082903_1_alg».proof.Proof.Spec
import proofs.«120294_j24678882082903_1_alg».proof.Proof.LibColumnLayout
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen Cert.Svm Cert.ColumnLayout

/-- A row's sum of squares: the lane reduction of the block's squares, read at row `r`. -/
theorem rowsq (x : FVec Ideal S1024x512 .f32) (r : Fin 1024) :
    multiReduction (F := Ideal) .add [1] S1024 (mulf x x) 0x00000000#32 Facts₀.reduces_S1024x512_S1024 (.inl rfl) rfl (ix1 r)
      = ∑ k : Fin 512, x (ix2 r k) * x (ix2 r k) := by
  refine (Ideal.multiReduction_add_single (mulf x x) 0x00000000#32 Facts₀.reduces_S1024x512_S1024 (.inl rfl) rfl (ix1 r)).trans ?_
  refine Finset.sum_congr rfl fun k _ => ?_
  have e : Facts₀.reduces_S1024x512_S1024.lift (ix1 r) k = ix2 r k :=
    funext fun a => Fin.ext (by match a with | ⟨0, _⟩ => rfl | ⟨1, _⟩ => rfl)
  rw [e]; rfl

/-- … kept as a column. -/
theorem colsq (x : FVec Ideal S1024x512 .f32) (r : Fin 1024) (u : Fin 1) :
    shapeCast S1024x1 (multiReduction (F := Ideal) .add [1] S1024 (mulf x x) 0x00000000#32 Facts₀.reduces_S1024x512_S1024 (.inl rfl) rfl)
        Facts₀.shapeCasts_S1024_S1024x1 (ix2 r u)
      = ∑ k : Fin 512, x (ix2 r k) * x (ix2 r k) :=
  (shapeCast_a_a1_apply _ Facts₀.shapeCasts_S1024_S1024x1 r u).trans (rowsq x r)

/-! The block product: row `r` of the support-vector block against row `c` of the query block.  The operand
    indices of the contraction at output `(r, c)` and feature `k` are `(r, k)` and `(k, c)`. -/

theorem lhs_dot_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dot_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dot_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of the two blocks into a zero accumulator, read at `(r, c)`: the inner product of the two rows.
    The narrowing of the operands to sixteen bits is the identity on the extended reals, and the second operand
    is the query block transposed. -/
theorem dot_apply (x0 x1 : FVec Ideal S1024x512 .f32) (r c : Fin 1024) :
    matmul (F := Ideal) dot_S1024x512_S512x1024_S1024x1024_1_0_0_1_n_n none (truncf .bf16 x0 Facts₀.bitsLt_bf16_f32)
        (transpose S512x1024 [1, 0] (truncf .bf16 x1 Facts₀.bitsLt_bf16_f32) Facts₀.transposes_S1024x512_p1_0_S512x1024)
        (constant S1024x1024 .f32 0x00000000#32) (ix2 r c)
      = ∑ k : Fin 512, x0 (ix2 r k) * x1 (ix2 c k) := by
  refine (Ideal.matmul_constant_zero_apply dot_S1024x512_S512x1024_S1024x1024_1_0_0_1_n_n none _ _ (ix2 r c)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 r c) ((ValueIdx.contrEquiv1 dot_S1024x512_S512x1024_S1024x1024_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S1024x512_S512x1024_S1024x1024_1_0_0_1_n_n.rhsIdx (ix2 r c) ((ValueIdx.contrEquiv1 dot_S1024x512_S512x1024_S1024x1024_1_0_0_1_n_n 512 rfl rfl).symm k) = ix2 k c := funext fun a => Fin.ext (by
    match a with
    | ⟨0, _⟩ => exact (rhs_dot_0 _ _).trans hk
    | ⟨1, _⟩ => exact rhs_dot_1 _ _)
  rw [el, er, transpose_ix2_apply]
  rfl

/-- A column sum: the reduction over the rows of a square block, read at column `c`. -/
theorem colsum (v : FVec Ideal S1024x1024 .f32) (c : Fin 1024) :
    multiReduction (F := Ideal) .add [0] S1024 v 0x00000000#32 Facts₀.reduces_S1024x1024_S1024 (.inl rfl) rfl (ix1 c)
      = ∑ r : Fin 1024, v (ix2 r c) := by
  refine (Ideal.multiReduction_add_single v 0x00000000#32 Facts₀.reduces_S1024x1024_S1024 (.inl rfl) rfl (ix1 c)).trans ?_
  refine Finset.sum_congr rfl fun r _ => ?_
  have e : Facts₀.reduces_S1024x1024_S1024.lift (ix1 c) r = ix2 r c :=
    funext fun a => Fin.ext (by match a with | ⟨0, _⟩ => rfl | ⟨1, _⟩ => rfl)
  rw [e]; rfl

/-- THE UPDATE at a column: the accumulator's entry plus, over the block's 1024 support vectors, each one's
    contribution at the block's query `c` — its weight (coefficient times label) times the radial kernel of its row
    against the query's row. -/
theorem pay4_apply (x0 x1 : FVec Ideal S1024x512 .f32) (xa xy : FVec Ideal S1024x1 .f32) (acc : FVec Ideal S1x1024 .f32)
    (u : Fin 1) (c : Fin 1024) :
    k0_pay4 (F := Ideal) x0 x1 xa xy acc (ix2 u c)
      = acc (ix2 u c) + ∑ r : Fin 1024, kern (fun k => x0 (ix2 r k)) (fun k => x1 (ix2 c k)) (xa (ix2 r 0) * xy (ix2 r 0)) := by
  unfold k0_pay4
  dsimp only
  show acc (ix2 u c) + shapeCast S1x1024 _ Facts₀.shapeCasts_S1024_S1x1024 (ix2 u c) = acc (ix2 u c) + _
  refine congrArg (acc (ix2 u c) + ·) ?_
  refine (shapeCast_a_1a_apply _ Facts₀.shapeCasts_S1024_S1x1024 u c).trans ?_
  refine (colsum _ c).trans ?_
  refine Finset.sum_congr rfl fun r _ => ?_
  unfold kern
  show broadcastTo S1024x1024 (mulf xa xy) Facts₀.broadcasts_S1024x1_S1024x1024 (ix2 r c)
      * Ideal.exp (Ideal.ofBits .f32 0xBB000000#32
        * max ((broadcastTo S1024x1024 (shapeCast S1024x1 _ Facts₀.shapeCasts_S1024_S1024x1) Facts₀.broadcasts_S1024x1_S1024x1024 (ix2 r c)
              + broadcastTo S1024x1024 (transpose S1x1024 [1, 0] (shapeCast S1024x1 _ Facts₀.shapeCasts_S1024_S1024x1) Facts₀.transposes_S1024x1_p1_0_S1x1024)
                  Facts₀.broadcasts_S1x1024_S1024x1024 (ix2 r c))
            - Ideal.ofBits .f32 0x40000000#32 * matmul dot_S1024x512_S512x1024_S1024x1024_1_0_0_1_n_n none _ _ _ (ix2 r c))
          (Ideal.ofBits .f32 0x00000000#32)) = _
  rw [broadcastTo_a1_ab_apply, broadcastTo_a1_ab_apply, colsq, broadcastTo_1b_ab_apply, transpose_ix2_apply, colsq, dot_apply,
    Ideal.ofBits_zero_f32]
  rfl

/-- The reshape of the accumulator to its own shape is the identity. -/
theorem pay1_eq (v : FVec Ideal S1x1024 .f32) : k0_pay1 (F := Ideal) v = v :=
  shapeCast_self v Facts₀.shapeCasts_S1x1024_S1x1024

/-- The cleared accumulator is zero at every entry. -/
theorem pay3_apply (i : S1x1024.Idx) : (k0_pay3 (F := Ideal)) i = 0 := by
  unfold k0_pay3
  rw [shapeCast_self]
  exact Ideal.ofBits_zero_f32

/-- THE OUTPUT BLOCK at row `p`: the accumulator's entry of column `p` plus the bias. -/
theorem pay2_apply (acc : FVec Ideal S1x1024 .f32) (xb : FVec Ideal S1x1 .f32) (p : Fin 1024) (u : Fin 1) :
    k0_pay2 (F := Ideal) acc xb (ix2 p u) = acc (ix2 (0 : Fin 1) p) + xb (ix2 0 0) := by
  unfold k0_pay2
  dsimp only
  have hu : u = 0 := Subsingleton.elim _ _
  subst hu
  rw [transpose_ix2_apply]
  show acc (ix2 (0 : Fin 1) p) + broadcastTo S1x1024 xb Facts₀.broadcasts_S1x1_S1x1024 (ix2 (0 : Fin 1) p) = _
  rw [broadcastTo_a1_ab_apply]

end Cert.KernelIdeal.Payload

end
-- ==== Proof.Blocks.lean ====
/-
  Which rows of the arrays a grid point sees.

  The 32 grid points are the pairs (j, s), j < 4 a block of 1024 queries and s < 8 a block of 1024 support
  vectors, in the order t = 8·j + s.  At point t the support vectors, their labels and their coefficients are read
  at rows 1024·(t mod 8) + r, the queries at rows 1024·(t / 8) + r, the bias at its one entry.  Each statement reads
  a window's block at a point, entry by entry, off the array the program was launched with.
-/
import proofs.«120294_j24678882082903_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- Where each window's block sits at grid point `t = 8·j + s`: the support vectors, their labels and their
    coefficients at row block `s`, the queries and the result at row block `j`, the bias at its one block. -/
theorem idx_facts : ∀ t : Fin cfg0.N,
    win0_0.index t (0 : Fin 2) = t.val % 8 ∧ win0_0.index t (1 : Fin 2) = 0 ∧
    win0_1.index t (0 : Fin 2) = t.val / 8 ∧ win0_1.index t (1 : Fin 2) = 0 ∧
    win0_2.index t (0 : Fin 2) = t.val % 8 ∧ win0_2.index t (1 : Fin 2) = 0 ∧
    win0_3.index t (0 : Fin 2) = t.val % 8 ∧ win0_3.index t (1 : Fin 2) = 0 ∧
    win0_4.index t (0 : Fin 2) = 0 ∧ win0_4.index t (1 : Fin 2) = 0 ∧
    win0_5.index t (0 : Fin 2) = t.val / 8 ∧ win0_5.index t (1 : Fin 2) = 0 :=
  (by decide +kernel : ∀ t : Fin grid0.N, _)

/-- The support-vector block at point `t`: rows `1024·(t % 8) …` of the support-vector array. -/
theorem xblk_apply (c : Dev nD) (t : Fin cfg0.N) (r : Fin 1024) (k : Fin 512) (h : 1024 * (t.val % 8) + r.val < 8192) :
    (iblk m c 0 t : Vec F S1024x512 .f32) (ix2 r k) = m ((c : Thread nD τ).loc main_arg1) (ix2 ⟨1024 * (t.val % 8) + r.val, h⟩ k) := by
  unfold iblk
  rw [View.read_apply]
  show V m c main_arg1 _ = m ((c : Thread nD τ).loc main_arg1) _
  unfold V
  congr 1
  funext a
  apply Fin.ext
  match a with
  | ⟨0, _⟩ => show win0_0.index t 0 * 1024 + 1 * r.val = 1024 * (t.val % 8) + r.val; rw [(idx_facts t).1]; omega
  | ⟨1, _⟩ => show win0_0.index t 1 * 512 + 1 * k.val = k.val; rw [(idx_facts t).2.1]; omega

/-- The query block at point `t`: rows `1024·(t / 8) …` of the query array. -/
theorem zblk_apply (c : Dev nD) (t : Fin cfg0.N) (r : Fin 1024) (k : Fin 512) (h : 1024 * (t.val / 8) + r.val < 4096) :
    (iblk m c 1 t : Vec F S1024x512 .f32) (ix2 r k) = m ((c : Thread nD τ).loc main_arg0) (ix2 ⟨1024 * (t.val / 8) + r.val, h⟩ k) := by
  unfold iblk
  rw [View.read_apply]
  show V m c main_arg0 _ = m ((c : Thread nD τ).loc main_arg0) _
  unfold V
  congr 1
  funext a
  apply Fin.ext
  match a with
  | ⟨0, _⟩ => show win0_1.index t 0 * 1024 + 1 * r.val = 1024 * (t.val / 8) + r.val; rw [(idx_facts t).2.2.1]; omega
  | ⟨1, _⟩ => show win0_1.index t 1 * 512 + 1 * k.val = k.val; rw [(idx_facts t).2.2.2.1]; omega

/-- The labels' block at point `t`: rows `1024·(t % 8) …` of the label column. -/
theorem yblk_apply (c : Dev nD) (t : Fin cfg0.N) (r : Fin 1024) (u : Fin 1) (h : 1024 * (t.val % 8) + r.val < 8192) :
    (iblk m c 2 t : Vec F S1024x1 .f32) (ix2 r u) = m ((c : Thread nD τ).loc main_arg2) (ix2 ⟨1024 * (t.val % 8) + r.val, h⟩ u) := by
  unfold iblk
  rw [View.read_apply]
  show V m c main_arg2 _ = m ((c : Thread nD τ).loc main_arg2) _
  unfold V
  congr 1
  funext a
  apply Fin.ext
  match a with
  | ⟨0, _⟩ => show win0_2.index t 0 * 1024 + 1 * r.val = 1024 * (t.val % 8) + r.val; rw [(idx_facts t).2.2.2.2.1]; omega
  | ⟨1, _⟩ => show win0_2.index t 1 * 1 + 1 * u.val = u.val; rw [(idx_facts t).2.2.2.2.2.1]; omega

/-- The coefficients' block at point `t`: rows `1024·(t % 8) …` of the coefficient column. -/
theorem ablk_apply (c : Dev nD) (t : Fin cfg0.N) (r : Fin 1024) (u : Fin 1) (h : 1024 * (t.val % 8) + r.val < 8192) :
    (iblk m c 3 t : Vec F S1024x1 .f32) (ix2 r u) = m ((c : Thread nD τ).loc main_arg3) (ix2 ⟨1024 * (t.val % 8) + r.val, h⟩ u) := by
  unfold iblk
  rw [View.read_apply]
  show V m c main_arg3 _ = m ((c : Thread nD τ).loc main_arg3) _
  unfold V
  congr 1
  funext a
  apply Fin.ext
  match a with
  | ⟨0, _⟩ => show win0_3.index t 0 * 1024 + 1 * r.val = 1024 * (t.val % 8) + r.val; rw [(idx_facts t).2.2.2.2.2.2.1]; omega
  | ⟨1, _⟩ => show win0_3.index t 1 * 1 + 1 * u.val = u.val; rw [(idx_facts t).2.2.2.2.2.2.2.1]; omega

/-- The bias block at every point is the bias array. -/
theorem bblk_apply (c : Dev nD) (t : Fin cfg0.N) (u v : Fin 1) :
    (iblk m c 4 t : Vec F S1x1 .f32) (ix2 u v) = m ((c : Thread nD τ).loc main_arg4) (ix2 u v) := by
  unfold iblk
  rw [View.read_apply]
  show V m c main_arg4 _ = m ((c : Thread nD τ).loc main_arg4) _
  unfold V
  congr 1
  funext a
  apply Fin.ext
  match a with
  | ⟨0, _⟩ => show win0_4.index t 0 * 1 + 1 * u.val = u.val; rw [(idx_facts t).2.2.2.2.2.2.2.2.1]; omega
  | ⟨1, _⟩ => show win0_4.index t 1 * 1 + 1 * v.val = v.val; rw [(idx_facts t).2.2.2.2.2.2.2.2.2.1]; omega

end Cert.KernelIdeal.Blocks

end
-- ==== Proof.Fold.lean ====
/-
  The accumulator over a run of eight grid points.

  For one block of 1024 queries the grid visits the eight blocks of 1024 support vectors in order.  The first point
  clears the accumulator and adds its block's contributions; each later point adds its own to what the point
  before left.  So after the run's last point the accumulator holds, at each of the block's queries,

      0 + Σ_{s < 8} Σ_{r < 1024} term (1024·s + r, query),

  which is the sum of `term` over all 8192 support vectors: sums on the extended reals may be regrouped freely.
  The fold itself is the library's (a quantity reset at the multiples of 8 and stepped elsewhere, unrolled as the
  reset value plus the sum of the steps' addends); written here are the step (what one point adds, from the blocks it
  reads) and the regrouping.
-/
import proofs.«120294_j24678882082903_1_alg».proof.Proof.Gen.KernelIdeal.Value
import proofs.«120294_j24678882082903_1_alg».proof.Proof.Pieces
import proofs.«120294_j24678882082903_1_alg».proof.Proof.Payload
import proofs.«120294_j24678882082903_1_alg».proof.Proof.Blocks
import proofs.«120294_j24678882082903_1_alg».proof.Proof.Spec

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen Cert.KernelIdeal.Value Cert.KernelIdeal.Pieces Cert.KernelIdeal.Payload Cert.KernelIdeal.Blocks Cert.Svm

variable (m : (ℓ : Loc nD τ sig) → Buf (Elt Ideal) ℓ)

/-- The five argument arrays of core `c`, at their literal shapes. -/
abbrev Xarr (c : Dev nD) : (⟨2, ![8192, 512]⟩ : Shape).Idx → EReal := m ((c : Thread nD τ).loc main_arg1)
abbrev Zarr (c : Dev nD) : (⟨2, ![4096, 512]⟩ : Shape).Idx → EReal := m ((c : Thread nD τ).loc main_arg0)
abbrev Yarr (c : Dev nD) : (⟨2, ![8192, 1]⟩ : Shape).Idx → EReal := m ((c : Thread nD τ).loc main_arg2)
abbrev Aarr (c : Dev nD) : (⟨2, ![8192, 1]⟩ : Shape).Idx → EReal := m ((c : Thread nD τ).loc main_arg3)
abbrev Barr (c : Dev nD) : (⟨2, ![1, 1]⟩ : Shape).Idx → EReal := m ((c : Thread nD τ).loc main_arg4)

/-- The blocks a point reads, at their literal shapes. -/
abbrev xblk (c : Dev nD) (t : Fin cfg0.N) : FVec Ideal S1024x512 .f32 := iblk m c 0 t
abbrev zblk (c : Dev nD) (t : Fin cfg0.N) : FVec Ideal S1024x512 .f32 := iblk m c 1 t
abbrev yblk (c : Dev nD) (t : Fin cfg0.N) : FVec Ideal S1024x1 .f32 := iblk m c 2 t
abbrev ablk (c : Dev nD) (t : Fin cfg0.N) : FVec Ideal S1024x1 .f32 := iblk m c 3 t
abbrev bblk (c : Dev nD) (t : Fin cfg0.N) : FVec Ideal S1x1 .f32 := iblk m c 4 t

theorem xblk_eq (c : Dev nD) (t : Fin cfg0.N) (r : Fin 1024) (k : Fin 512) (h : 1024 * (t.val % 8) + r.val < 8192) :
    xblk m c t (ix2 r k) = Xarr m c (ix2 ⟨1024 * (t.val % 8) + r.val, h⟩ k) := xblk_apply m c t r k h
theorem zblk_eq (c : Dev nD) (t : Fin cfg0.N) (r : Fin 1024) (k : Fin 512) (h : 1024 * (t.val / 8) + r.val < 4096) :
    zblk m c t (ix2 r k) = Zarr m c (ix2 ⟨1024 * (t.val / 8) + r.val, h⟩ k) := zblk_apply m c t r k h
theorem yblk_eq (c : Dev nD) (t : Fin cfg0.N) (r : Fin 1024) (u : Fin 1) (h : 1024 * (t.val % 8) + r.val < 8192) :
    yblk m c t (ix2 r u) = Yarr m c (ix2 ⟨1024 * (t.val % 8) + r.val, h⟩ u) := yblk_apply m c t r u h
theorem ablk_eq (c : Dev nD) (t : Fin cfg0.N) (r : Fin 1024) (u : Fin 1) (h : 1024 * (t.val % 8) + r.val < 8192) :
    ablk m c t (ix2 r u) = Aarr m c (ix2 ⟨1024 * (t.val % 8) + r.val, h⟩ u) := ablk_apply m c t r u h
theorem bblk_eq (c : Dev nD) (t : Fin cfg0.N) (u v : Fin 1) :
    bblk m c t (ix2 u v) = Barr m c (ix2 u v) := bblk_apply m c t u v

/-- WHAT POINT `p` ADDS to the accumulator at a column: the contributions of its 1024 support vectors
    (rows `1024·(p mod 8) + r`) at that column's query (row `1024·(p / 8) + column`). -/
def addend (c : Dev nD) (p : ℕ) : S1x1024.Idx → EReal := fun i =>
  ∑ r : Fin 1024, termN (Xarr m c) (Zarr m c) (Yarr m c) (Aarr m c) (1024 * (p % 8) + r.val) (1024 * (p / 8) + (i 1).val)

/-- One support vector of the point's block against one query of the point's block: the blocks' rows are the
    arrays' rows, so the contribution is the arrays' `term` at the pair. -/
theorem kern_blocks (c : Dev nD) (t : Fin cfg0.N) (r q : Fin 1024) :
    kern (fun k => xblk m c t (ix2 r k)) (fun k => zblk m c t (ix2 q k)) (ablk m c t (ix2 r 0) * yblk m c t (ix2 r 0))
      = termN (Xarr m c) (Zarr m c) (Yarr m c) (Aarr m c) (1024 * (t.val % 8) + r.val) (1024 * (t.val / 8) + q.val) := by
  have hN : cfg0.N = 32 := N_0
  have ht := t.isLt
  have h1 : 1024 * (t.val % 8) + r.val < 8192 := by have := r.isLt; omega
  have h2 : 1024 * (t.val / 8) + q.val < 4096 := by have := q.isLt; omega
  rw [termN_eq _ _ _ _ _ _ h1 h2]
  unfold term
  simp only [xblk_eq m c t _ _ h1, zblk_eq m c t _ _ h2, ablk_eq m c t _ _ h1, yblk_eq m c t _ _ h1]

/-- THE STEP: what a point stores is what the accumulator held plus the point's addend. -/
theorem upd_apply (c : Dev nD) (t : Fin cfg0.N) (acc : FVec Ideal S1x1024 .f32) (i : S1x1024.Idx) :
    k0_pay1 (F := Ideal) (k0_pay4 (xblk m c t) (zblk m c t) (ablk m c t) (yblk m c t) acc) i = acc i + addend m c t.val i := by
  rw [pay1_eq]
  obtain ⟨u, q, rfl⟩ : ∃ (u : Fin 1) (q : Fin 1024), i = ix2 u q := ⟨i 0, i 1, eq_ix2 i⟩
  refine (pay4_apply _ _ _ _ acc u q).trans ?_
  refine congrArg (acc (ix2 u q) + ·) ?_
  exact Finset.sum_congr rfl fun r _ => kern_blocks m c t r q

/-- At the first point of a run the accumulator is cleared before the update: it ends at the point's addend. -/
theorem scAt_first (c : Dev nD) (n : ℕ) (hb : n < cfg0.N) (h0 : n % 8 = 0) (acc : FVec Ideal S1x1024 .f32) (i : S1x1024.Idx) :
    scAt0_0 m c n hb acc i = 0 + addend m c n i := by
  have h1 : ¬n % 8 = 7 := by omega
  unfold scAt0_0
  rw [dif_pos h0, dif_neg h1, sout_A]
  refine (upd_apply m c ⟨n, hb⟩ (k0_pay3 (F := Ideal)) i).trans ?_
  rw [pay3_apply]

/-- At every other point it ends at what the point before left plus the point's addend. -/
theorem scAt_next (c : Dev nD) (n : ℕ) (hb : n < cfg0.N) (h0 : ¬n % 8 = 0) (acc : FVec Ideal S1x1024 .f32) (i : S1x1024.Idx) :
    scAt0_0 m c n hb acc i = acc i + addend m c n i := by
  unfold scAt0_0
  rw [dif_neg h0]
  by_cases h1 : n % 8 = 7
  · rw [dif_pos h1, sout_C]; exact upd_apply m c ⟨n, hb⟩ acc i
  · rw [dif_neg h1, sout_B]; exact upd_apply m c ⟨n, hb⟩ acc i

/-- THE ACCUMULATOR AFTER A RUN'S LAST POINT: at column `q` of query block `t / 8`, the sum over ALL 8192 support
    vectors of their contributions at query `1024·(t / 8) + q` — the eight points' addends, each a sum over 1024
    consecutive support vectors, added in point order from zero. -/
theorem scratch_last (c : Dev nD) (t : Fin cfg0.N) (h7 : t.val % 8 = 7) (u : Fin 1) (q : Fin 1024)
    (hq : 1024 * (t.val / 8) + q.val < 4096) :
    (outsAt0 m c t.val t.isLt).2 (ix2 u q)
      = ∑ n : Fin 8192, term (Xarr m c) (Zarr m c) (Yarr m c) (Aarr m c) n ⟨1024 * (t.val / 8) + q.val, hq⟩ := by
  have hN : cfg0.N = 32 := N_0
  have ht := t.isLt
  rw [soutsAt0_0_eq m c t]
  refine (Pipeline.accAt_add_apply (fun n h => scAt0_0 m c n h (VS0_0.read (Elt Ideal) VS0_0.junk)) (scAt0_0 m c)
    (fun _ => (0 : EReal)) (addend m c) (8 * (t.val / 8)) 7
    (fun h i => scAt_first m c _ h (by omega) _ i)
    (fun n h acc i hlt hle => scAt_next m c n h (by omega) acc i)
    (t.val % 8) (by omega) _ (ix2 u q)).trans ?_
  rw [h7, zero_add]
  have e : ∀ s ∈ Finset.range (7 + 1), addend m c (8 * (t.val / 8) + s) (ix2 u q)
      = ∑ r : Fin 1024, termN (Xarr m c) (Zarr m c) (Yarr m c) (Aarr m c) (1024 * s + r.val) (1024 * (t.val / 8) + q.val) := by
    intro s hs
    have hs' : s < 8 := Finset.mem_range.mp hs
    unfold addend
    rw [show (8 * (t.val / 8) + s) % 8 = s by omega, show (8 * (t.val / 8) + s) / 8 = t.val / 8 by omega]
  rw [Finset.sum_congr rfl e]
  exact tiles_sum (Xarr m c) (Zarr m c) (Yarr m c) (Aarr m c) _ hq

end Cert.KernelIdeal.Fold

end
-- ==== Proof.Result.lean ====
/-
  The result array after the run.

  The output window is written back only by the last point of each run of eight, and then its block — rows
  1024·j … 1024·j + 1023 of the result column — is the bias added to the accumulator of that run, that is, the
  decision values of the run's 1024 queries (`Svm.G` at those rows).  Every row lies in exactly one such block
  (row n in the block of point 8·(n / 1024) + 7), so the array after the run is `Svm.G` of the argument arrays.
-/
import proofs.«120294_j24678882082903_1_alg».proof.Proof.Fold

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.Pieces Cert.KernelIdeal.Payload Cert.KernelIdeal.Blocks
open Cert.KernelIdeal.Fold Cert.Svm

variable (m : (ℓ : Loc nD τ sig) → Buf (Elt Ideal) ℓ) (ρ : Dev nD → PrngReg)

/-- THE RESULT ARRAY of core `c`: the decision values of the 4096 queries, from the core's argument arrays. -/
abbrev result (c : Dev nD) : (⟨2, ![4096, 1]⟩ : Shape).Idx → EReal :=
  G (Xarr m c) (Zarr m c) (Yarr m c) (Aarr m c) (Barr m c)

/-- At a run's last point the output block is the bias added to the accumulator the same point has just stored. -/
theorem out_of_scratch (c : Dev nD) (t : Fin cfg0.N) (h7 : t.val % 8 = 7) :
    (outsAt0 m c t.val t.isLt).1 = k0_pay2 (F := Ideal) ((outsAt0 m c t.val t.isLt).2) (bblk m c t) := by
  have h0 : ¬t.val % 8 = 0 := by omega
  rw [outsAt0_C m c t h0 h7]
  dsimp only
  rw [out_C, sout_C]

/-- … so at row `p` it is the decision value of query `1024·(t / 8) + p`. -/
theorem out_last (c : Dev nD) (t : Fin cfg0.N) (h7 : t.val % 8 = 7) (p : Fin 1024) (u : Fin 1)
    (hp : 1024 * (t.val / 8) + p.val < 4096) :
    (outsAt0 m c t.val t.isLt).1 (ix2 p u) = result m c (ix2 ⟨1024 * (t.val / 8) + p.val, hp⟩ u) := by
  rw [out_of_scratch m c t h7]
  refine (pay2_apply _ _ p u).trans ?_
  rw [scratch_last m c t h7 0 p hp, bblk_eq]
  rfl

/-- WHAT A RUN'S LAST POINT WRITES BACK is its block of the result array. -/
theorem flushed_eq (c : Dev nD) (t : Fin cfg0.N) (hf : (cfg0.win 5).flush t = true) :
    (dats m 0 c).flushed 5 t = ((cfg0.win 5).blk t).view.read (Elt Ideal) (result m c) := by
  have hN : cfg0.N = 32 := N_0
  have ht := t.isLt
  have h7 : t.val % 8 = 7 := (flush0_5 t).mp hf
  rw [flushed5]
  funext j
  obtain ⟨p, u, rfl⟩ : ∃ (p : Fin 1024) (u : Fin 1), j = ix2 p u := ⟨j 0, j 1, eq_ix2 j⟩
  have hp : 1024 * (t.val / 8) + p.val < 4096 := by have := p.isLt; omega
  rw [View.read_apply]
  show (outsAt0 m c t.val t.isLt).1 (ix2 p u) = result m c (((cfg0.win 5).blk t).view.emb (ix2 p u))
  rw [out_last m c t h7 p u hp]
  congr 1
  funext a
  apply Fin.ext
  match a with
  | ⟨0, _⟩ => show 1024 * (t.val / 8) + p.val = win0_5.index t 0 * 1024 + 1 * p.val; rw [(idx_facts t).2.2.2.2.2.2.2.2.2.2.1]; omega
  | ⟨1, _⟩ => show u.val = win0_5.index t 1 * 1 + 1 * u.val; rw [(idx_facts t).2.2.2.2.2.2.2.2.2.2.2]; omega

/-- An index of the result array is in point `t`'s block iff each coordinate is in the block's range on its axis. -/
theorem mem_blk (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0).slice (win0_5.rect t)).set ↔ _
  rw [View.set_slice_whole, Rect.mem_set_unit]
  exact Iff.rfl

/-- Every query's entry is written by the last point of its block's run: query `n` by point `8·(n / 1024) + 7`. -/
theorem cover (i : S4096x1.Idx) :
    ∃ t : Fin cfg0.N, (cfg0.win 5).flush t = true ∧ i ∈ ((cfg0.win 5).blk t).view.set := by
  have hN : cfg0.N = 32 := N_0
  have hi0 : (i 0).val < 4096 := (i 0).isLt
  have hi1 : (i 1).val < 1 := (i 1).isLt
  have hb : 8 * ((i 0).val / 1024) + 7 < cfg0.N := by omega
  refine ⟨⟨8 * ((i 0).val / 1024) + 7, hb⟩, (flush0_5 _).mpr (by show (8 * ((i 0).val / 1024) + 7) % 8 = 7; omega), ?_⟩
  rw [mem_blk]
  have f0 : win0_5.index ⟨8 * ((i 0).val / 1024) + 7, hb⟩ (0 : Fin 2) = (8 * ((i 0).val / 1024) + 7) / 8 := (idx_facts _).2.2.2.2.2.2.2.2.2.2.1
  have f1 : win0_5.index ⟨8 * ((i 0).val / 1024) + 7, hb⟩ (1 : Fin 2) = 0 := (idx_facts _).2.2.2.2.2.2.2.2.2.2.2
  intro a
  match a with
  | ⟨0, _⟩ =>
    show win0_5.index ⟨8 * ((i 0).val / 1024) + 7, hb⟩ (0 : Fin 2) * 1024 ≤ (i 0).val ∧ (i 0).val < win0_5.index ⟨8 * ((i 0).val / 1024) + 7, hb⟩ (0 : Fin 2) * 1024 + 1024
    rw [f0]; omega
  | ⟨1, _⟩ =>
    show win0_5.index ⟨8 * ((i 0).val / 1024) + 7, hb⟩ (1 : Fin 2) * 1 ≤ (i 1).val ∧ (i 1).val < win0_5.index ⟨8 * ((i 0).val / 1024) + 7, hb⟩ (1 : Fin 2) * 1 + 1
    rw [f1]; omega

/-- THE ARRAY after the run is the result. -/
theorem final (c : Dev nD) : (dats m 0 c).arrAt 5 cfg0.N = result m c :=
  (dats m 0 c).arrAt_eq_of_cover 5 (result m c) (fun t hf => flushed_eq m c t hf) cover

/-- The run, read: the result array at the decision values, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Result

end
-- ==== Proof.RefValue.lean ====
/-
  The reference computes `Svm.G`.

  The reference program forms, for every pair (support vector n, query p), the squared norms of the two rows by
  host sums from zero, their inner product by one matrix product against the transposed query array, the clamped
  and scaled squared distance, its exponential, and the product with a_n · y_n; it then sums over n from zero, adds
  the bias and lays the 4096 values out as a column.  Read at an index through the operations' read-at-an-index
  lemmas, with the composed index functions of its layout operations identified as plain pairs, the entry at
  (n, p) is `Svm.term` there and the result is `Svm.G`; the zero starts of the host sums are dropped (0 + x = x).
-/
import proofs.«120294_j24678882082903_1_alg».proof.Proof.Gen.ReferenceIdeal.Read
import proofs.«120294_j24678882082903_1_alg».proof.Proof.Spec

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Svm

/-! The index functions the reference's layout operations compose, at a pair (support vector `n`, query `p`). -/

theorem i_w (n : Fin 8192) (p : Fin 4096) : idx_main_v21 (ix2 n p) = ix2 n (0 : Fin 1) := funext fun a => Fin.ext (by match a with | ⟨0, _⟩ => rfl | ⟨1, _⟩ => rfl)
theorem i_l (n : Fin 8192) (p : Fin 4096) (k : Fin 512) : lidx_main_v11 (ix2 n p) k = ix2 n k := funext fun a => Fin.ext (by match a with | ⟨0, _⟩ => rfl | ⟨1, _⟩ => rfl)
theorem i_r (n : Fin 8192) (p : Fin 4096) (k : Fin 512) : idx_main_v10 (ridx_main_v11 (ix2 n p) k) = ix2 p k := funext fun a => Fin.ext (by match a with | ⟨0, _⟩ => rfl | ⟨1, _⟩ => rfl)
theorem i_x (n : Fin 8192) (p : Fin 4096) (k : Fin 512) : idx_main_v1 (idx_main_v2 (idx_main_v7 (ix2 n p))) k = ix2 n k := funext fun a => Fin.ext (by match a with | ⟨0, _⟩ => rfl | ⟨1, _⟩ => rfl)
theorem i_z (n : Fin 8192) (p : Fin 4096) (k : Fin 512) : idx_main_v4 (idx_main_v5 (idx_main_v6 (idx_main_v8 (ix2 n p)))) k = ix2 p k := funext fun a => Fin.ext (by match a with | ⟨0, _⟩ => rfl | ⟨1, _⟩ => rfl)

/-- The weighted kernel matrix of the reference at (support vector `n`, query `p`) is `term` there: the same
    operations in the same order, its host sums starting from zero. -/
theorem v22_apply (x0 : (⟨S4096x512, .f32⟩ : BufTy).Contents (Elt Ideal)) (x1 : (⟨S8192x512, .f32⟩ : BufTy).Contents (Elt Ideal))
    (x2 x3 : (⟨S8192x1, .f32⟩ : BufTy).Contents (Elt Ideal)) (n : Fin 8192) (p : Fin 4096) :
    val_main_v22 (F := Ideal) x0 x1 x2 x3 (ix2 n p) = term x1 x0 x2 x3 n p := by
  rw [val_main_v22_apply, val_main_v21_apply, val_main_v20_apply, val_main_v19_apply, val_main_v18_apply, val_main_v17_apply,
    val_main_cst_3_apply, val_main_v16_apply, val_main_v15_apply, val_main_cst_2_apply, val_main_v14_apply, val_main_v13_apply,
    val_main_v12_apply, val_main_cst_1_apply, val_main_v11_apply, val_main_v9_apply, val_main_v7_apply, val_main_v2_apply,
    val_main_v1_apply, val_main_v8_apply, val_main_v6_apply, val_main_v5_apply, val_main_v4_apply, val_main_cst_apply,
    val_main_cst_0_apply]
  simp only [val_main_v0_apply, val_main_v3_apply, val_main_v10_apply, i_w, i_l, i_r, i_x, i_z]
  unfold term kern
  simp only [Ideal.mulf_def, Ideal.addf_def, Ideal.subf_def, Ideal.maximumf_def, Ideal.hostUnary_exp_def, Ideal.ofBits_def,
    Ideal.ofBits_zero_f32, zero_add]

theorem i_s (p : Fin 4096) (u : Fin 1) (n : Fin 8192) : idx_main_v23 (idx_main_v24 (idx_main_v27 (ix2 p u))) n = ix2 n p := funext fun a => Fin.ext (by match a with | ⟨0, _⟩ => rfl | ⟨1, _⟩ => rfl)
theorem i_b (p : Fin 4096) (u : Fin 1) : idx_main_v25 (idx_main_v27 (ix2 p u)) = ix2 (0 : Fin 1) (0 : Fin 1) := funext fun a => Fin.ext (by match a with | ⟨0, _⟩ => rfl | ⟨1, _⟩ => rfl)

/-- THE REFERENCE'S RESULT is `G` of its arguments: the sum over the support vectors (from zero) of the weighted
    kernel matrix's column, plus the bias, laid out as a column. -/
theorem ref_eq (x0 : (⟨S4096x512, .f32⟩ : BufTy).Contents (Elt Ideal)) (x1 : (⟨S8192x512, .f32⟩ : BufTy).Contents (Elt Ideal))
    (x2 x3 : (⟨S8192x1, .f32⟩ : BufTy).Contents (Elt Ideal)) (x4 : (⟨S1x1, .f32⟩ : BufTy).Contents (Elt Ideal)) :
    val_main_v27 (F := Ideal) x0 x1 x2 x3 x4 = G x1 x0 x2 x3 x4 := by
  funext i
  obtain ⟨p, u, rfl⟩ : ∃ (p : Fin 4096) (u : Fin 1), i = ix2 p u := ⟨i 0, i 1, eq_ix2 i⟩
  rw [val_main_v27_apply, val_main_v26_apply, val_main_v24_apply, val_main_v23_apply, val_main_v25_apply, val_main_cst_4_apply]
  simp only [i_s, i_b, v22_apply]
  unfold G
  simp only [Ideal.addf_def, Ideal.ofBits_def, Ideal.ofBits_zero_f32, zero_add]

end Cert.ReferenceIdeal.RefValue

end
-- ==== Proof.lean ====
/-
  Equivalence, over the extended reals, of a tiled support-vector decision kernel and its plain reference.

  Both programs compute, for 4096 queries z_q against 8192 support vectors x_n with coefficients a_n, labels y_n
  and a bias b,
      out_q = ( Σ_n (a_n · y_n) · exp (γ · max (‖x_n‖² + ‖z_q‖² − 2 · ⟨x_n, z_q⟩, 0)) ) + b       (`Svm.G`).
  The reference forms the whole 8192 × 4096 weighted kernel matrix and sums its columns.  The kernel walks a grid
  of 4 query blocks × 8 support-vector blocks: each point adds the column sums of its 1024 × 1024 tile to a row
  accumulator that the first point of a run clears, and the last point of a run adds the bias and writes the
  block of 1024 results.  Entry by entry the two tiles' arithmetic is the same (a narrowing of the matrix
  product's operands to sixteen bits is the identity on the extended reals); what differs is the grouping of the
  sum over n — eight partial sums of 1024 terms added in order from zero against one sum of 8192 terms from zero —,
  and addition on the extended reals is commutative and associative, so the two agree on every input: the
  precondition is not used.

  The three frames are the programs' generated runs; the idealization rewrote nothing, so `preserves` is `True`;
  `algebraic` sets the kernel's run, read as `Svm.G` (Result.lean), beside the reference's, read as `Svm.G`
  (RefValue.lean), on arguments that agree.
-/
import proofs.«120294_j24678882082903_1_alg».proof.Defs
import proofs.«120294_j24678882082903_1_alg».proof.Proof.Gen.Kernel
import proofs.«120294_j24678882082903_1_alg».proof.Proof.Gen.Kernel.Skeleton
import proofs.«120294_j24678882082903_1_alg».proof.Proof.Gen.Kernel.Launch
import proofs.«120294_j24678882082903_1_alg».proof.Proof.Gen.Kernel.Points
import proofs.«120294_j24678882082903_1_alg».proof.Proof.Gen.Kernel.Frame
import proofs.«120294_j24678882082903_1_alg».proof.Proof.Gen.KernelIdeal
import proofs.«120294_j24678882082903_1_alg».proof.Proof.Gen.KernelIdeal.Skeleton
import proofs.«120294_j24678882082903_1_alg».proof.Proof.Gen.KernelIdeal.Launch
import proofs.«120294_j24678882082903_1_alg».proof.Proof.Gen.KernelIdeal.Points
import proofs.«120294_j24678882082903_1_alg».proof.Proof.Gen.KernelIdeal.Frame
import proofs.«120294_j24678882082903_1_alg».proof.Proof.Gen.ReferenceIdeal
import proofs.«120294_j24678882082903_1_alg».proof.Proof.Gen.Pre_finite_inputs
import proofs.«120294_j24678882082903_1_alg».proof.Proof.Gen.KernelIdeal.Value
import proofs.«120294_j24678882082903_1_alg».proof.Proof.Gen.ReferenceIdeal.Run
import proofs.«120294_j24678882082903_1_alg».proof.Proof.Gen.ReferenceIdeal.Read
import proofs.«120294_j24678882082903_1_alg».proof.Proof.Result
import proofs.«120294_j24678882082903_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's result are both `Svm.G` of them. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v27_eq (F := Ideal) _ _ _ _ _).trans (Cert.ReferenceIdeal.RefValue.ref_eq _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
